-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x256 : Shape := ⟨3, ![32, 8192, 256]⟩
abbrev S64x256 : Shape := ⟨2, ![64, 256]⟩
abbrev S64 : Shape := ⟨1, ![64]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S32x8192x256 .f32) (main_arg1 : FVec F S64x256 .f32) (main_arg2 : FVec F S64 .f32) (main_arg3 : FVec F S64x256 .f32) : IVec S_ 1 :=
  let main_v0 : FVec F S32x8192x256 .f32 := Host.absf main_arg0
  let main_cst : FVec F S_ .f32 := constant S_ .f32 0x7F800000#32
  let main_v1 : FVec F S32x8192x256 .f32 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S32x8192x256 : Shape := ⟨3, ![32, 8192, 256]⟩
abbrev S64x256 : Shape := ⟨2, ![64, 256]⟩
abbrev S64 : Shape := ⟨1, ![64]⟩
abbrev S256x64 : Shape := ⟨2, ![256, 64]⟩
abbrev S1x64 : Shape := ⟨2, ![1, 64]⟩
abbrev S32x64x256 : Shape := ⟨3, ![32, 64, 256]⟩
abbrev S1x8192x256 : Shape := ⟨3, ![1, 8192, 256]⟩
abbrev S1x64x256 : Shape := ⟨3, ![1, 64, 256]⟩
abbrev S8192x256 : Shape := ⟨2, ![8192, 256]⟩
abbrev S8192x64 : Shape := ⟨2, ![8192, 64]⟩
abbrev S8192 : Shape := ⟨1, ![8192]⟩
abbrev S8192x1 : Shape := ⟨2, ![8192, 1]⟩
abbrev S64x1 : Shape := ⟨2, ![64, 1]⟩
abbrev S32x16384 : Shape := ⟨2, ![32, 16384]⟩

abbrev nBuf : Space → Nat
  | .hbm => 8
  | .vmem => 7
  | .smem => 0
  | _ => 0

abbrev bufTy : (tb : Table) → Fin (tcTables nBuf tb) → BufTy
  | .hbm, ⟨0, _⟩ => ⟨S32x8192x256, .f32⟩
  | .hbm, ⟨1, _⟩ => ⟨S64x256, .f32⟩
  | .hbm, ⟨2, _⟩ => ⟨S64, .f32⟩
  | .hbm, ⟨3, _⟩ => ⟨S64x256, .f32⟩
  | .hbm, ⟨4, _⟩ => ⟨S256x64, .f32⟩
  | .hbm, ⟨5, _⟩ => ⟨S1x64, .f32⟩
  | .hbm, ⟨6, _⟩ => ⟨S32x64x256, .f32⟩
  | .hbm, ⟨7, _⟩ => ⟨S32x16384, .f32⟩
  | .local _ .vmem, ⟨0, _⟩ => ⟨S1x8192x256, .f32⟩
  | .local _ .vmem, ⟨1, _⟩ => ⟨S1x8192x256, .f32⟩
  | .local _ .vmem, ⟨2, _⟩ => ⟨S256x64, .f32⟩
  | .local _ .vmem, ⟨3, _⟩ => ⟨S1x64, .f32⟩
  | .local _ .vmem, ⟨4, _⟩ => ⟨S64x256, .f32⟩
  | .local _ .vmem, ⟨5, _⟩ => ⟨S1x64x256, .f32⟩
  | .local _ .vmem, ⟨6, _⟩ => ⟨S1x64x256, .f32⟩
  | _, _ => ⟨S32x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x256_S256x64_1_0 : S64x256.Transposes [1, 0] S256x64
  shapeCasts_S64_S1x64 : S64.ShapeCasts S1x64
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S64 : S1x64.ShapeCasts S64
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  broadcasts_S1x64_S8192x64 : S1x64.Broadcasts S8192x64
  reduces_S8192x64_S8192 : S8192x64.Reduces [1] S8192
  shapeCasts_S8192_S8192x1 : S8192.ShapeCasts S8192x1
  broadcasts_S8192x1_S8192x64 : S8192x1.Broadcasts S8192x64
  reduces_S8192x64_S64 : S8192x64.Reduces [0] S64
  shapeCasts_S64_S64x1 : S64.ShapeCasts S64x1
  broadcasts_S64x1_S64x256 : S64x1.Broadcasts S64x256
  reduces_S64x256_S64 : S64x256.Reduces [1] S64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  shapeCasts_S32x64x256_S32x16384 : S32x64x256.ShapeCasts S32x16384
  dot_S8192x256_S256x64_S8192x64_1_0_0_1_n_n_wf : DotDims.WF S8192x256 S256x64 S8192x64 [1] [0] [0] [1] [] []
  dot_S8192x64_S8192x256_S64x256_0_0_1_1_n_n_wf : DotDims.WF S8192x64 S8192x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x256.size a ≤ S32x8192x256.size a
  hwx0_0 : ∀ i : grid0.Coords, EltTy.bits .f32 = 32 ∨ (Rect.block (s := S32x8192x256) S1x8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S32x64x256.size a
  hwx0_4 : ∀ i : grid0.Coords, EltTy.bits .f32 = 32 ∨ (Rect.block (s := S32x64x256) S1x64x256.size (cc0_transform_4 i) (hinb0_4 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S8192x256_S64x256_0_0_1_1_n_n : DotDims S8192x64 S8192x256 S64x256 where
  lhsContracting := [0]
  rhsContracting := [0]
  lhsNonContracting := [1]
  rhsNonContracting := [1]
  lhsBatch := []
  rhsBatch := []
  wf := dot_S8192x64_S8192x256_S64x256_0_0_1_1_n_n_wf

abbrev win0_0 : Pipeline.Window sig grid0 :=
  Pipeline.Window.ofSpec (Memref.whole main_arg0) S1x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8192x256 : Shape := ⟨3, ![32, 8192, 256]⟩
abbrev S64x256 : Shape := ⟨2, ![64, 256]⟩
abbrev S64 : Shape := ⟨1, ![64]⟩
abbrev S32x8192x64 : Shape := ⟨3, ![32, 8192, 64]⟩
abbrev S1x1x64 : Shape := ⟨3, ![1, 1, 64]⟩
abbrev S_ : Shape := ⟨0, ![]⟩
abbrev S32x8192 : Shape := ⟨2, ![32, 8192]⟩
abbrev S32x8192x1 : Shape := ⟨3, ![32, 8192, 1]⟩
abbrev S32x64x256 : Shape := ⟨3, ![32, 64, 256]⟩
abbrev S32x64 : Shape := ⟨2, ![32, 64]⟩
abbrev S32x64x1 : Shape := ⟨3, ![32, 64, 1]⟩
abbrev S1x64x256 : Shape := ⟨3, ![1, 64, 256]⟩
abbrev S32x16384 : Shape := ⟨2, ![32, 16384]⟩

abbrev nBuf : Space → Nat
  | .hbm => 42
  | .vmem => 0
  | .smem => 0
  | _ => 0

abbrev bufTy : (tb : Table) → Fin (tcTables nBuf tb) → BufTy
  | .hbm, ⟨0, _⟩ => ⟨S32x8192x256, .f32⟩
  | .hbm, ⟨1, _⟩ => ⟨S64x256, .f32⟩
  | .hbm, ⟨2, _⟩ => ⟨S64, .f32⟩
  | .hbm, ⟨3, _⟩ => ⟨S64x256, .f32⟩
  | .hbm, ⟨4, _⟩ => ⟨S32x8192x64, .f32⟩
  | .hbm, ⟨5, _⟩ => ⟨S1x1x64, .f32⟩
  | .hbm, ⟨6, _⟩ => ⟨S32x8192x64, .f32⟩
  | .hbm, ⟨7, _⟩ => ⟨S32x8192x64, .f32⟩
  | .hbm, ⟨8, _⟩ => ⟨S_, .f32⟩
  | .hbm, ⟨9, _⟩ => ⟨S32x8192, .f32⟩
  | .hbm, ⟨10, _⟩ => ⟨S_, .f32⟩
  | .hbm, ⟨11, _⟩ => ⟨S32x8192, .f32⟩
  | .hbm, ⟨12, _⟩ => ⟨S32x8192, .f32⟩
  | .hbm, ⟨13, _⟩ => ⟨S32x8192x1, .f32⟩
  | .hbm, ⟨14, _⟩ => ⟨S32x8192x64, .f32⟩
  | .hbm, ⟨15, _⟩ => ⟨S32x8192x64, .f32⟩
  | .hbm, ⟨16, _⟩ => ⟨S32x8192x64, .f32⟩
  | .hbm, ⟨17, _⟩ => ⟨S_, .f32⟩
  | .hbm, ⟨18, _⟩ => ⟨S32x8192, .f32⟩
  | .hbm, ⟨19, _⟩ => ⟨S32x8192x1, .f32⟩
  | .hbm, ⟨20, _⟩ => ⟨S32x8192x64, .f32⟩
  | .hbm, ⟨21, _⟩ => ⟨S32x8192x64, .f32⟩
  | .hbm, ⟨22, _⟩ => ⟨S32x64x256, .f32⟩
  | .hbm, ⟨23, _⟩ => ⟨S_, .f32⟩
  | .hbm, ⟨24, _⟩ => ⟨S32x64, .f32⟩
  | .hbm, ⟨25, _⟩ => ⟨S32x64x1, .f32⟩
  | .hbm, ⟨26, _⟩ => ⟨S1x64x256, .f32⟩
  | .hbm, ⟨27, _⟩ => ⟨S32x64x256, .f32⟩
  | .hbm, ⟨28, _⟩ => ⟨S32x64x256, .f32⟩
  | .hbm, ⟨29, _⟩ => ⟨S32x64x256, .f32⟩
  | .hbm, ⟨30, _⟩ => ⟨S32x64x256, .f32⟩
  | .hbm, ⟨31, _⟩ => ⟨S32x64x256, .f32⟩
  | .hbm, ⟨32, _⟩ => ⟨S_, .f32⟩
  | .hbm, ⟨33, _⟩ => ⟨S32x64, .f32⟩
  | .hbm, ⟨34, _⟩ => ⟨S32x64x1, .f32⟩
  | .hbm, ⟨35, _⟩ => ⟨S32x64x1, .f32⟩
  | .hbm, ⟨36, _⟩ => ⟨S_, .f32⟩
  | .hbm, ⟨37, _⟩ => ⟨S32x64x1, .f32⟩
  | .hbm, ⟨38, _⟩ => ⟨S32x64x1, .f32⟩
  | .hbm, ⟨39, _⟩ => ⟨S32x64x256, .f32⟩
  | .hbm, ⟨40, _⟩ => ⟨S32x64x256, .f32⟩
  | .hbm, ⟨41, _⟩ => ⟨S32x16384, .f32⟩
  | _, _ => ⟨S32x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x8192x64_0_1_2 : S1x1x64.BroadcastsInDim S32x8192x64 (![0, 1, 2] : Fin 3 → Fin S32x8192x64.rank)
  reducesTo_S32x8192x64_S32x8192_d2 : S32x8192x64.ReducesTo [2] S32x8192
  h_S_ : 0 < S_.numel
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S32x8192x1_S32x8192x64_0_1_2 : S32x8192x1.BroadcastsInDim S32x8192x64 (![0, 1, 2] : Fin 3 → Fin S32x8192x64.rank)
  reducesTo_S32x8192x64_S32x64_d1 : S32x8192x64.ReducesTo [1] S32x64
  bcast_S32x64_S32x64x1_0_1 : S32x64.BroadcastsInDim S32x64x1 (![0, 1] : Fin 2 → Fin S32x64x1.rank)
  bcast_S64x256_S1x64x256_1_2 : S64x256.BroadcastsInDim S1x64x256 (![1, 2] : Fin 2 → Fin S1x64x256.rank)
  bcast_S32x64x1_S32x64x256_0_1_2 : S32x64x1.BroadcastsInDim S32x64x256 (![0, 1, 2] : Fin 3 → Fin S32x64x256.rank)
  bcast_S1x64x256_S32x64x256_0_1_2 : S1x64x256.BroadcastsInDim S32x64x256 (![0, 1, 2] : Fin 3 → Fin S32x64x256.rank)
  reducesTo_S32x64x256_S32x64_d2 : S32x64x256.ReducesTo [2] S32x64
  bcast_S_S32x64x1 : S_.BroadcastsInDim S32x64x1 (![] : Fin 0 → Fin S32x64x1.rank)
  shapeCasts_S32x64x256_S32x16384 : S32x64x256.ShapeCasts S32x16384
  dot_S32x8192x256_S64x256_S32x8192x64_2_1_01_0_n_n_wf : DotDims.WF S32x8192x256 S64x256 S32x8192x64 [2] [1] [0, 1] [0] [] []
  dot_S32x8192x64_S32x8192x256_S32x64x256_1_1_2_2_0_0_wf : DotDims.WF S32x8192x64 S32x8192x256 S32x64x256 [1] [1] [2] [2] [0] [0]

variable [Facts₀]

def dot_S32x8192x256_S64x256_S32x8192x64_2_1_01_0_n_n : DotDims S32x8192x256 S64x256 S32x8192x64 where
  lhsContracting := [2]
  rhsContracting := [1]
  lhsNonContracting := [0, 1]
  rhsNonContracting := [0]
  lhsBatch := []
  rhsBatch := []
  wf := dot_S32x8192x256_S64x256_S32x8192x64_2_1_01_0_n_n_wf
def dot_S32x8192x64_S32x8192x256_S32x64x256_1_1_2_2_0_0 : DotDims S32x8192x64 S32x8192x256 S32x64x256 where
  lhsContracting := [1]
  rhsContracting := [1]
  lhsNonContracting := [2]
  rhsNonContracting := [2]
  lhsBatch := [0]
  rhsBatch := [0]
  wf := dot_S32x8192x64_S32x8192x256_S32x64x256_1_1_2_2_0_0_wf

class Facts : Prop extends Facts₀ where

variable [Facts]
-- ==== Proof.Spec.lean ====
/-
  NetVLAD pooling of one batch, by coordinates, on the extended reals.

  For one batch the inputs are the descriptors `xb n d` (8192 of them, 256 features each), the assignment weights
  `w k d` and biases `bb k` of 64 clusters, and the cluster centres `cc k d`. Each descriptor is softly assigned to the
  clusters by a softmax over `k` of the logits `⟨xb n, w k⟩ + bb k`, shifted by the row's maximum before the
  exponential; the result for cluster `k` is the assignment-weighted sum of the descriptors minus the total
  assignment times the centre, divided by its own Euclidean norm clamped below by a small constant.
  Every sum here is a `Finset` sum over a coordinate range, so nothing is said about the order of summation.
-/
import Idealize.ShloMosaic.PureOps.Ideal
import Idealize.ShloMosaic.Lib.ValueIdx

noncomputable section

namespace Cert.NetVlad

open Idealize.ShloMosaic Idealize.ShloMosaic.ValueIdx

/-- The lower clamp of the norm: the value of the f32 pattern both programs write for `1e-12`. -/
abbrev clampEps : EReal := Ideal.ofBits .f32 0x2B8CBCCC#32
/-- The value a row maximum starts from: the f32 pattern of `-∞`. -/
abbrev maxInit : EReal := Ideal.ofBits .f32 0xFF800000#32

section
variable (xb : Fin 8192 → Fin 256 → EReal) (w : Fin 64 → Fin 256 → EReal) (bb : Fin 64 → EReal)
  (cc : Fin 64 → Fin 256 → EReal)

/-- The logit of descriptor `n` for cluster `k`. -/
def logit (n : Fin 8192) (k : Fin 64) : EReal := (∑ d : Fin 256, xb n d * w k d) + bb k
/-- The largest logit of descriptor `n`. -/
def rowMax (n : Fin 8192) : EReal := (Finset.univ : Finset (Fin 64)).fold max maxInit (logit xb w bb n)
/-- The shifted exponential. -/
def expo (n : Fin 8192) (k : Fin 64) : EReal := Ideal.exp (logit xb w bb n k - rowMax xb w bb n)
/-- The softmax denominator of descriptor `n`. -/
def denom (n : Fin 8192) : EReal := ∑ k : Fin 64, expo xb w bb n k
/-- The soft assignment of descriptor `n` to cluster `k`. -/
def assign (n : Fin 8192) (k : Fin 64) : EReal := Ideal.div (expo xb w bb n k) (denom xb w bb n)
/-- The total assignment to cluster `k`. -/
def assignSum (k : Fin 64) : EReal := ∑ n : Fin 8192, assign xb w bb n k
/-- The assignment-weighted sum of the descriptors. -/
def agg (k : Fin 64) (d : Fin 256) : EReal := ∑ n : Fin 8192, assign xb w bb n k * xb n d
/-- The residual to the centre: `Σ_n a(n,k) (x(n,d) − c(k,d))`, written as the two sums. -/
def resid (k : Fin 64) (d : Fin 256) : EReal := agg xb w bb k d - assignSum xb w bb k * cc k d
/-- The Euclidean norm of cluster `k`'s residual. -/
def residNorm (k : Fin 64) : EReal := Ideal.sqrt (∑ d : Fin 256, resid xb w bb cc k d * resid xb w bb cc k d)
/-- The normalised residual. -/
def pooledRow (k : Fin 64) (d : Fin 256) : EReal :=
  Ideal.div (resid xb w bb cc k d) (max (residNorm xb w bb cc k) clampEps)
end

/-- The pooled array of all 32 batches, as one function of the four argument arrays. -/
def pooled (x : (⟨3, ![32, 8192, 256]⟩ : Shape).Idx → EReal) (W : (⟨2, ![64, 256]⟩ : Shape).Idx → EReal)
    (b : (⟨1, ![64]⟩ : Shape).Idx → EReal) (c : (⟨2, ![64, 256]⟩ : Shape).Idx → EReal) :
    (⟨3, ![32, 64, 256]⟩ : Shape).Idx → EReal := fun i =>
  pooledRow (fun n d => x (ix3 (i 0 : Fin 32) n d)) (fun k d => W (ix2 k d)) (fun k => b (ix1 k)) (fun k d => c (ix2 k d))
    (i 1 : Fin 64) (i 2 : Fin 256)

/-- A fold of `max` is at least the value it starts from, so taking `max` with that value again changes nothing. -/
theorem max_init_fold {ι : Type*} (s : Finset ι) (b : EReal) (f : ι → EReal) : max b (s.fold max b f) = s.fold max b f :=
  max_eq_right (Finset.le_fold_max b |>.mpr (Or.inl le_rfl))

end Cert.NetVlad

end
-- ==== Proof.RefPooled.lean ====
/-
  The reference's result before its final reshape is the pooled array of the specification.

  Stage by stage, each value of the reference read at an index given by coordinates is the specification's function of the
  same name: the logits (a contraction over the feature axis plus the broadcast bias), the row maximum (a fold of `max`
  from `-∞`; taking `max` with `-∞` once more changes nothing), the shifted exponentials, their row sums, the soft
  assignments, the two sums over the descriptors, the residual, its norm and the normalised residual. A host sum starts
  from the value of the zero pattern, which is `0`.
-/
import proofs.«116050_j65755949302226_1_alg».proof.Proof.Gen.ReferenceIdeal.Read
import proofs.«116050_j65755949302226_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.NetVlad
open Idealize.ShloMosaic Idealize.ShloMosaic.ValueIdx

variable (x0 : (⟨S32x8192x256, .f32⟩ : BufTy).Contents (Elt Ideal)) (x1 : (⟨S64x256, .f32⟩ : BufTy).Contents (Elt Ideal))
  (x2 : (⟨S64, .f32⟩ : BufTy).Contents (Elt Ideal)) (x3 : (⟨S64x256, .f32⟩ : BufTy).Contents (Elt Ideal))

/-- Batch `bi`'s descriptors, the weights, the biases and the centres, by coordinates. -/
abbrev xbOf (bi : Fin 32) : Fin 8192 → Fin 256 → EReal := fun n d => x0 (ix3 bi n d)
abbrev wOf : Fin 64 → Fin 256 → EReal := fun k d => x1 (ix2 k d)
abbrev bOf : Fin 64 → EReal := fun k => x2 (ix1 k)
abbrev cOf : Fin 64 → Fin 256 → EReal := fun k d => x3 (ix2 k d)

/-- The axis facts the two reductions over one axis are read through. -/
theorem red_clusters : S32x8192x64.Reduces [2] S32x8192 := by decide

/-! ## The logits -/

theorem lidx_logit (bi : Fin 32) (n : Fin 8192) (k : Fin 64) (d : Fin 256) : lidx_main_v0 (ix3 bi n k) d = ix3 bi n d :=
  funext fun a => by match a with | ⟨0, _⟩ => rfl | ⟨1, _⟩ => rfl | ⟨2, _⟩ => rfl
theorem ridx_logit (bi : Fin 32) (n : Fin 8192) (k : Fin 64) (d : Fin 256) : ridx_main_v0 (ix3 bi n k) d = ix2 k d :=
  funext fun a => by match a with | ⟨0, _⟩ => rfl | ⟨1, _⟩ => rfl
theorem idx_bias (bi : Fin 32) (n : Fin 8192) (k : Fin 64) : idx_main_v1 (idx_main_v2 (ix3 bi n k)) = ix1 k :=
  funext fun a => by match a with | ⟨0, _⟩ => rfl

theorem ref_logit (bi : Fin 32) (n : Fin 8192) (k : Fin 64) :
    val_main_v3 (F := Ideal) x0 x1 x2 (ix3 bi n k) = logit (xbOf x0 bi) (wOf x1) (bOf x2) n k := by
  rw [val_main_v3_apply, val_main_v0_apply, val_main_v2_apply, val_main_v1_apply]
  simp only [lidx_logit, ridx_logit, idx_bias]
  rfl

/-! ## The row maximum -/

theorem lift_clusters (bi : Fin 32) (n : Fin 8192) (k : Fin 64) : red_clusters.lift (ix2 bi n) k = ix3 bi n k :=
  funext fun a => Fin.ext (by match a with | ⟨0, _⟩ => rfl | ⟨1, _⟩ => rfl | ⟨2, _⟩ => rfl)

theorem ref_rowMax (bi : Fin 32) (n : Fin 8192) :
    val_main_v6 (F := Ideal) x0 x1 x2 (ix2 bi n) = rowMax (xbOf x0 bi) (wOf x1) (bOf x2) n := by
  rw [val_main_v6_apply, val_main_v5_apply, val_main_cst_0_apply]
  unfold val_main_v4
  rw [Host.reduce_eq_fold_single FloatOps.maximumf _ _ reducesTo_S32x8192x64_S32x8192_d2 red_clusters h_S_, val_main_cst_apply]
  have e : (val_main_v3 (F := Ideal) x0 x1 x2 ∘ red_clusters.lift (ix2 bi n)) = logit (xbOf x0 bi) (wOf x1) (bOf x2) n :=
    funext fun k =>
      (congrArg (val_main_v3 (F := Ideal) x0 x1 x2) (lift_clusters bi n k)).trans (ref_logit x0 x1 x2 bi n k)
  rw [e]
  exact max_init_fold _ _ _

/-! ## The softmax -/

theorem idx_rowOf (bi : Fin 32) (n : Fin 8192) (k : Fin 64) : idx_main_v7 (idx_main_v8 (ix3 bi n k)) = ix2 bi n :=
  funext fun a => by match a with | ⟨0, _⟩ => rfl | ⟨1, _⟩ => rfl

theorem ref_expo (bi : Fin 32) (n : Fin 8192) (k : Fin 64) :
    val_main_v10 (F := Ideal) x0 x1 x2 (ix3 bi n k) = expo (xbOf x0 bi) (wOf x1) (bOf x2) n k := by
  rw [val_main_v10_apply, val_main_v9_apply, val_main_v8_apply, val_main_v7_apply, idx_rowOf, ref_logit, ref_rowMax]
  rfl

theorem idx_sumClusters (bi : Fin 32) (n : Fin 8192) (k : Fin 64) : idx_main_v11 (ix2 bi n) k = ix3 bi n k :=
  funext fun a => by match a with | ⟨0, _⟩ => rfl | ⟨1, _⟩ => rfl | ⟨2, _⟩ => rfl

theorem ref_denom (bi : Fin 32) (n : Fin 8192) :
    val_main_v11 (F := Ideal) x0 x1 x2 (ix2 bi n) = denom (xbOf x0 bi) (wOf x1) (bOf x2) n := by
  rw [val_main_v11_apply, val_main_cst_1_apply]
  simp only [Ideal.ofBits_def, Ideal.ofBits_zero_f32, zero_add, idx_sumClusters, ref_expo]
  rfl

theorem idx_rowOf' (bi : Fin 32) (n : Fin 8192) (k : Fin 64) : idx_main_v12 (idx_main_v13 (ix3 bi n k)) = ix2 bi n :=
  funext fun a => by match a with | ⟨0, _⟩ => rfl | ⟨1, _⟩ => rfl

theorem ref_assign (bi : Fin 32) (n : Fin 8192) (k : Fin 64) :
    val_main_v14 (F := Ideal) x0 x1 x2 (ix3 bi n k) = assign (xbOf x0 bi) (wOf x1) (bOf x2) n k := by
  rw [val_main_v14_apply, val_main_v13_apply, val_main_v12_apply, idx_rowOf', ref_expo, ref_denom]
  rfl

/-! ## The two sums over the descriptors -/

theorem lidx_agg (bi : Fin 32) (k : Fin 64) (d : Fin 256) (n : Fin 8192) : lidx_main_v15 (ix3 bi k d) n = ix3 bi n k :=
  funext fun a => by match a with | ⟨0, _⟩ => rfl | ⟨1, _⟩ => rfl | ⟨2, _⟩ => rfl
theorem ridx_agg (bi : Fin 32) (k : Fin 64) (d : Fin 256) (n : Fin 8192) : ridx_main_v15 (ix3 bi k d) n = ix3 bi n d :=
  funext fun a => by match a with | ⟨0, _⟩ => rfl | ⟨1, _⟩ => rfl | ⟨2, _⟩ => rfl

theorem ref_agg (bi : Fin 32) (k : Fin 64) (d : Fin 256) :
    val_main_v15 (F := Ideal) x0 x1 x2 (ix3 bi k d) = agg (xbOf x0 bi) (wOf x1) (bOf x2) k d := by
  rw [val_main_v15_apply]
  simp only [lidx_agg, ridx_agg, ref_assign]
  rfl

theorem idx_sumDescr (bi : Fin 32) (k : Fin 64) (n : Fin 8192) : idx_main_v16 (ix2 bi k) n = ix3 bi n k :=
  funext fun a => by match a with | ⟨0, _⟩ => rfl | ⟨1, _⟩ => rfl | ⟨2, _⟩ => rfl

theorem ref_assignSum (bi : Fin 32) (k : Fin 64) :
    val_main_v16 (F := Ideal) x0 x1 x2 (ix2 bi k) = assignSum (xbOf x0 bi) (wOf x1) (bOf x2) k := by
  rw [val_main_v16_apply, val_main_cst_2_apply]
  simp only [Ideal.ofBits_def, Ideal.ofBits_zero_f32, zero_add, idx_sumDescr, ref_assign]
  rfl

/-! ## The residual, its norm, the result -/

theorem idx_clusterOf (bi : Fin 32) (k : Fin 64) (d : Fin 256) : idx_main_v17 (idx_main_v19 (ix3 bi k d)) = ix2 bi k :=
  funext fun a => by match a with | ⟨0, _⟩ => rfl | ⟨1, _⟩ => rfl
theorem idx_centre (bi : Fin 32) (k : Fin 64) (d : Fin 256) : idx_main_v18 (idx_main_v20 (ix3 bi k d)) = ix2 k d :=
  funext fun a => by match a with | ⟨0, _⟩ => rfl | ⟨1, _⟩ => rfl

theorem ref_resid (bi : Fin 32) (k : Fin 64) (d : Fin 256) :
    val_main_v22 (F := Ideal) x0 x1 x2 x3 (ix3 bi k d) = resid (xbOf x0 bi) (wOf x1) (bOf x2) (cOf x3) k d := by
  rw [val_main_v22_apply, val_main_v21_apply, val_main_v19_apply, val_main_v17_apply, val_main_v20_apply, val_main_v18_apply,
    idx_clusterOf, idx_centre, ref_agg, ref_assignSum]
  rfl

theorem idx_normOf (bi : Fin 32) (k : Fin 64) (z : Fin 1) : idx_main_call0_v2 (ix3 bi k z) = ix2 bi k :=
  funext fun a => by match a with | ⟨0, _⟩ => rfl | ⟨1, _⟩ => rfl
theorem idx_sumFeat (bi : Fin 32) (k : Fin 64) (d : Fin 256) : idx_main_call0_v1 (ix2 bi k) d = ix3 bi k d :=
  funext fun a => by match a with | ⟨0, _⟩ => rfl | ⟨1, _⟩ => rfl | ⟨2, _⟩ => rfl

theorem ref_norm (bi : Fin 32) (k : Fin 64) (z : Fin 1) :
    val_main_v23 (F := Ideal) x0 x1 x2 x3 (ix3 bi k z) = residNorm (xbOf x0 bi) (wOf x1) (bOf x2) (cOf x3) k := by
  rw [val_main_v23_apply, val_main_call0_v2_apply, idx_normOf, val_main_call0_v1_apply, val_main_call0_cst_apply]
  simp only [Ideal.ofBits_def, Ideal.ofBits_zero_f32, zero_add, idx_sumFeat, val_main_call0_v0_apply, ref_resid]
  rfl

theorem idx_normOf' (bi : Fin 32) (k : Fin 64) (d : Fin 256) : idx_main_v26 (ix3 bi k d) = ix3 bi k (0 : Fin 1) :=
  funext fun a => by match a with | ⟨0, _⟩ => rfl | ⟨1, _⟩ => rfl | ⟨2, _⟩ => rfl

theorem ref_pooledRow (bi : Fin 32) (k : Fin 64) (d : Fin 256) :
    val_main_v27 (F := Ideal) x0 x1 x2 x3 (ix3 bi k d) = pooledRow (xbOf x0 bi) (wOf x1) (bOf x2) (cOf x3) k d := by
  rw [val_main_v27_apply, val_main_v26_apply, val_main_v25_apply, val_main_v24_apply, val_main_cst_3_apply, idx_normOf',
    ref_resid, ref_norm]
  rfl

/-- The reference's array before the final reshape is the specification's pooled array of the arguments. -/
theorem ref_pooled : val_main_v27 (F := Ideal) x0 x1 x2 x3 = pooled x0 x1 x2 x3 := by
  funext i
  obtain ⟨bi, k, d, rfl⟩ : ∃ (bi : Fin 32) (k : Fin 64) (d : Fin 256), i = ix3 bi k d := ⟨i 0, i 1, i 2, eq_ix3 i⟩
  exact ref_pooledRow x0 x1 x2 x3 bi k d

end Cert.ReferenceIdeal.RefValue

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelBody.lean ====
/-
  The kernel's body, stage by stage, is the specification of one batch.

  The body loads one batch's descriptors (a `[1, 8192, 256]` block), the transposed weights (`[256, 64]`), the biases as a
  row (`[1, 64]`) and the centres, and computes the pooled rows of that batch. Its stages are named here in the order the
  body computes them; each, read at an index given by coordinates, is the specification's function of the same name of the
  loaded blocks. Changes of float format are the identity on the extended reals; a matrix product into the zero accumulator
  is the sum of the products along its one contracted axis; a lane reduction is the sum, or the fold of `max`, over the
  reduced axis's coordinates; a `keepdims` column and its broadcast read back the entry of their row.
-/
import proofs.«116050_j65755949302226_1_alg».proof.Proof.Gen.KernelIdeal.Skeleton
import proofs.«116050_j65755949302226_1_alg».proof.Proof.Spec
import proofs.«116050_j65755949302226_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.NetVlad Cert.Lib
open Idealize.ShloMosaic Idealize.ShloMosaic.ValueIdx

variable (x0 : Vec Ideal S1x8192x256 .f32) (x1 : Vec Ideal S256x64 .f32) (x2 : Vec Ideal S1x64 .f32) (x3 : Vec Ideal S64x256 .f32)

/-- The loaded blocks by coordinates: the batch's descriptors, the weights (loaded transposed), the biases, the centres. -/
abbrev xbK : Fin 8192 → Fin 256 → EReal := fun n d => x0 (ix3 (0 : Fin 1) n d)
abbrev wK : Fin 64 → Fin 256 → EReal := fun k d => x1 (ix2 d k)
abbrev bK : Fin 64 → EReal := fun k => x2 (ix2 (0 : Fin 1) k)
abbrev cK : Fin 64 → Fin 256 → EReal := fun k d => x3 (ix2 k d)

/-! ## The body's stages -/

/-- The descriptors as a matrix. -/
def descr : FVec Ideal S8192x256 .bf16 := truncf .bf16 (shapeCast S8192x256 x0 shapeCasts_S1x8192x256_S8192x256) bitsLt_bf16_f32
/-- The transposed weights. -/
def weights : FVec Ideal S256x64 .bf16 := truncf .bf16 (shapeCast S256x64 x1 shapeCasts_S256x64_S256x64) bitsLt_bf16_f32
/-- The logits: descriptors times transposed weights, plus the bias row broadcast down the rows. -/
def logits : FVec Ideal S8192x64 .f32 :=
  addf (matmul dot_S8192x256_S256x64_S8192x64_1_0_0_1_n_n none (descr x0) (weights x1) (constant S8192x64 .f32 0x00000000#32))
    (broadcastTo S8192x64 (shapeCast S1x64 (shapeCast S64 x2 shapeCasts_S1x64_S64) shapeCasts_S64_S1x64) broadcasts_S1x64_S8192x64)
/-- The row maxima. -/
def rowMaxs : FVec Ideal S8192 .f32 :=
  multiReduction .maximumf [1] S8192 (logits x0 x1 x2) 0xFF800000#32 reduces_S8192x64_S8192 (.inl rfl) rfl
/-- The shifted exponentials. -/
def expos : FVec Ideal S8192x64 .f32 :=
  exp (subf (logits x0 x1 x2) (broadcastTo S8192x64 (shapeCast S8192x1 (rowMaxs x0 x1 x2) shapeCasts_S8192_S8192x1) broadcasts_S8192x1_S8192x64))
/-- Their row sums. -/
def denoms : FVec Ideal S8192 .f32 :=
  multiReduction .add [1] S8192 (expos x0 x1 x2) 0x00000000#32 reduces_S8192x64_S8192 (.inl rfl) rfl
/-- The soft assignments. -/
def assigns : FVec Ideal S8192x64 .f32 :=
  divf (expos x0 x1 x2) (broadcastTo S8192x64 (shapeCast S8192x1 (denoms x0 x1 x2) shapeCasts_S8192_S8192x1) broadcasts_S8192x1_S8192x64)
/-- The total assignment of each cluster. -/
def assignSums : FVec Ideal S64 .f32 :=
  multiReduction .add [0] S64 (assigns x0 x1 x2) 0x00000000#32 reduces_S8192x64_S64 (.inl rfl) rfl
/-- The assignment-weighted sums of the descriptors: assignments transposed times descriptors. -/
def aggs : FVec Ideal S64x256 .f32 :=
  matmul dot_S8192x64_S8192x256_S64x256_0_0_1_1_n_n none (truncf .bf16 (assigns x0 x1 x2) bitsLt_bf16_f32) (descr x0)
    (constant S64x256 .f32 0x00000000#32)
/-- The residuals to the centres. -/
def resids : FVec Ideal S64x256 .f32 :=
  subf (aggs x0 x1 x2)
    (mulf (broadcastTo S64x256 (shapeCast S64x1 (assignSums x0 x1 x2) shapeCasts_S64_S64x1) broadcasts_S64x1_S64x256) x3)
/-- Their norms, as a column. -/
def norms : FVec Ideal S64x1 .f32 :=
  sqrt (shapeCast S64x1 (multiReduction .add [1] S64 (mulf (resids x0 x1 x2 x3) (resids x0 x1 x2 x3)) 0x00000000#32
    reduces_S64x256_S64 (.inl rfl) rfl) shapeCasts_S64_S64x1)
/-- The normalised residuals. -/
def normed : FVec Ideal S64x256 .f32 :=
  divf (resids x0 x1 x2 x3)
    (broadcastTo S64x256 (maximumf (norms x0 x1 x2 x3) (broadcast S64x1 (Scalar.ofBits .f32 0x2B8CBCCC#32))) broadcasts_S64x1_S64x256)

/-- The body's stored value is the last stage, viewed as a `[1, 64, 256]` block. -/
theorem pay_stages : k0_pay1 (F := Ideal) x0 x1 x2 x3 = shapeCast S1x64x256 (normed x0 x1 x2 x3) shapeCasts_S64x256_S1x64x256 := rfl

/-! ## The operand indices of the two matrix products -/

abbrev dotA := dot_S8192x256_S256x64_S8192x64_1_0_0_1_n_n
abbrev dotB := dot_S8192x64_S8192x256_S64x256_0_0_1_1_n_n

theorem lhsA_0 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide), dif_pos (show (0 : Fin S8192x256.rank) ∈ dot_S8192x256_S256x64_S8192x64_1_0_0_1_n_n.lhsNonContracting by decide)]
  rfl
theorem lhsA_1 (i : S8192x64.Idx) (q : dot_S8192x256_S256x64_S8192x64_1_0_0_1_n_n.contr.Idx) :
    (dot_S8192x256_S256x64_S8192x64_1_0_0_1_n_n.lhsIdx i q 1).val = (q ⟨0, by decide⟩).val :=
  dot_S8192x256_S256x64_S8192x64_1_0_0_1_n_n.lhsIdx_val_of_single rfl i q
theorem rhsA_0 (i : S8192x64.Idx) (q : dot_S8192x256_S256x64_S8192x64_1_0_0_1_n_n.contr.Idx) :
    (dot_S8192x256_S256x64_S8192x64_1_0_0_1_n_n.rhsIdx i q 0).val = (q ⟨0, by decide⟩).val :=
  dot_S8192x256_S256x64_S8192x64_1_0_0_1_n_n.rhsIdx_val_of_single rfl i q
theorem rhsA_1 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide), dif_pos (show (1 : Fin S256x64.rank) ∈ dot_S8192x256_S256x64_S8192x64_1_0_0_1_n_n.rhsNonContracting by decide)]
  rfl

theorem lhsB_0 (i : S64x256.Idx) (q : dot_S8192x64_S8192x256_S64x256_0_0_1_1_n_n.contr.Idx) :
    (dot_S8192x64_S8192x256_S64x256_0_0_1_1_n_n.lhsIdx i q 0).val = (q ⟨0, by decide⟩).val :=
  dot_S8192x64_S8192x256_S64x256_0_0_1_1_n_n.lhsIdx_val_of_single rfl i q
theorem lhsB_1 (i : S64x256.Idx) (q : dot_S8192x64_S8192x256_S64x256_0_0_1_1_n_n.contr.Idx) :
    (dot_S8192x64_S8192x256_S64x256_0_0_1_1_n_n.lhsIdx i q 1).val = (i 0).val := by
  unfold DotDims.lhsIdx
  rw [dif_neg (show ¬(1 : Fin S8192x64.rank) ∈ dot_S8192x64_S8192x256_S64x256_0_0_1_1_n_n.lhsBatch by decide), dif_pos (show (1 : Fin S8192x64.rank) ∈ dot_S8192x64_S8192x256_S64x256_0_0_1_1_n_n.lhsNonContracting by decide)]
  rfl
theorem rhsB_0 (i : S64x256.Idx) (q : dot_S8192x64_S8192x256_S64x256_0_0_1_1_n_n.contr.Idx) :
    (dot_S8192x64_S8192x256_S64x256_0_0_1_1_n_n.rhsIdx i q 0).val = (q ⟨0, by decide⟩).val :=
  dot_S8192x64_S8192x256_S64x256_0_0_1_1_n_n.rhsIdx_val_of_single rfl i q
theorem rhsB_1 (i : S64x256.Idx) (q : dot_S8192x64_S8192x256_S64x256_0_0_1_1_n_n.contr.Idx) :
    (dot_S8192x64_S8192x256_S64x256_0_0_1_1_n_n.rhsIdx i q 1).val = (i 1).val := by
  unfold DotDims.rhsIdx
  rw [dif_neg (show ¬(1 : Fin S8192x256.rank) ∈ dot_S8192x64_S8192x256_S64x256_0_0_1_1_n_n.rhsBatch by decide), dif_pos (show (1 : Fin S8192x256.rank) ∈ dot_S8192x64_S8192x256_S64x256_0_0_1_1_n_n.rhsNonContracting by decide)]
  rfl

/-! ## Each stage at coordinates -/

theorem descr_at (n : Fin 8192) (d : Fin 256) : descr x0 (ix2 n d) = x0 (ix3 (0 : Fin 1) n d) :=
  shapeCast_1ab_ab_apply x0 shapeCasts_S1x8192x256_S8192x256 n d

theorem weights_at (d : Fin 256) (k : Fin 64) : weights x1 (ix2 d k) = x1 (ix2 d k) :=
  congrFun (shapeCast_self x1 shapeCasts_S256x64_S256x64) (ix2 d k)

theorem logits_at (n : Fin 8192) (k : Fin 64) :
    logits x0 x1 x2 (ix2 n k) = logit (xbK x0) (wK x1) (bK x2) n k := by
  have hm := Ideal.matmul_constant_zero_apply dot_S8192x256_S256x64_S8192x64_1_0_0_1_n_n none (descr x0) (weights x1) (ix2 n k)
  unfold logits logit
  refine congrArg₂ (· + ·) (hm.trans ?_) ?_
  · rw [← Equiv.sum_comp (contrEquiv1 dot_S8192x256_S256x64_S8192x64_1_0_0_1_n_n 256 rfl rfl).symm]
    refine Finset.sum_congr rfl fun d _ => ?_
    have hk := contrEquiv1_symm_val dot_S8192x256_S256x64_S8192x64_1_0_0_1_n_n 256 rfl rfl d
    have el : dot_S8192x256_S256x64_S8192x64_1_0_0_1_n_n.lhsIdx (ix2 n k) ((contrEquiv1 dot_S8192x256_S256x64_S8192x64_1_0_0_1_n_n 256 rfl rfl).symm d) = ix2 n d := funext fun a => Fin.ext (by
      match a with
      | ⟨0, _⟩ => exact lhsA_0 _ _
      | ⟨1, _⟩ => exact (lhsA_1 _ _).trans hk)
    have er : dot_S8192x256_S256x64_S8192x64_1_0_0_1_n_n.rhsIdx (ix2 n k) ((contrEquiv1 dot_S8192x256_S256x64_S8192x64_1_0_0_1_n_n 256 rfl rfl).symm d) = ix2 d k := funext fun a => Fin.ext (by
      match a with
      | ⟨0, _⟩ => exact (rhsA_0 _ _).trans hk
      | ⟨1, _⟩ => exact rhsA_1 _ _)
    rw [el, er, descr_at, weights_at]
  · rw [broadcastTo_1b_ab_apply, shapeCast_a_1a_apply, shapeCast_1a_a_apply]

theorem lift_cluster (n : Fin 8192) (k : Fin 64) : reduces_S8192x64_S8192.lift (ix1 n) k = ix2 n k :=
  funext fun a => Fin.ext (by match a with | ⟨0, _⟩ => rfl | ⟨1, _⟩ => rfl)

theorem rowMaxs_at (n : Fin 8192) : rowMaxs x0 x1 x2 (ix1 n) = rowMax (xbK x0) (wK x1) (bK x2) n := by
  unfold rowMaxs rowMax
  refine (Ideal.multiReduction_maximumf_single (logits x0 x1 x2) 0xFF800000#32 reduces_S8192x64_S8192 (.inl rfl) rfl (ix1 n)).trans ?_
  have e : (logits x0 x1 x2 ∘ reduces_S8192x64_S8192.lift (ix1 n)) = logit (xbK x0) (wK x1) (bK x2) n :=
    funext fun k => (congrArg (logits x0 x1 x2) (lift_cluster n k)).trans (logits_at x0 x1 x2 n k)
  rw [e]
  rfl

theorem expos_at (n : Fin 8192) (k : Fin 64) : expos x0 x1 x2 (ix2 n k) = expo (xbK x0) (wK x1) (bK x2) n k := by
  unfold expos expo
  show Ideal.exp (logits x0 x1 x2 (ix2 n k) - broadcastTo S8192x64 _ broadcasts_S8192x1_S8192x64 (ix2 n k)) = _
  rw [broadcastTo_a1_ab_apply, shapeCast_a_a1_apply, logits_at, rowMaxs_at]

theorem denoms_at (n : Fin 8192) : denoms x0 x1 x2 (ix1 n) = denom (xbK x0) (wK x1) (bK x2) n := by
  unfold denoms denom
  refine (Ideal.multiReduction_add_single (expos x0 x1 x2) 0x00000000#32 reduces_S8192x64_S8192 (.inl rfl) rfl (ix1 n)).trans ?_
  exact Finset.sum_congr rfl fun k _ => (congrArg (expos x0 x1 x2) (lift_cluster n k)).trans (expos_at x0 x1 x2 n k)

theorem assigns_at (n : Fin 8192) (k : Fin 64) : assigns x0 x1 x2 (ix2 n k) = assign (xbK x0) (wK x1) (bK x2) n k := by
  unfold assigns assign
  show Ideal.div (expos x0 x1 x2 (ix2 n k)) (broadcastTo S8192x64 _ broadcasts_S8192x1_S8192x64 (ix2 n k)) = _
  rw [broadcastTo_a1_ab_apply, shapeCast_a_a1_apply, expos_at, denoms_at]

theorem lift_descr (k : Fin 64) (n : Fin 8192) : reduces_S8192x64_S64.lift (ix1 k) n = ix2 n k :=
  funext fun a => Fin.ext (by match a with | ⟨0, _⟩ => rfl | ⟨1, _⟩ => rfl)

theorem assignSums_at (k : Fin 64) : assignSums x0 x1 x2 (ix1 k) = assignSum (xbK x0) (wK x1) (bK x2) k := by
  unfold assignSums assignSum
  refine (Ideal.multiReduction_add_single (assigns x0 x1 x2) 0x00000000#32 reduces_S8192x64_S64 (.inl rfl) rfl (ix1 k)).trans ?_
  exact Finset.sum_congr rfl fun n _ => (congrArg (assigns x0 x1 x2) (lift_descr k n)).trans (assigns_at x0 x1 x2 n k)

theorem aggs_at (k : Fin 64) (d : Fin 256) : aggs x0 x1 x2 (ix2 k d) = agg (xbK x0) (wK x1) (bK x2) k d := by
  have hm := Ideal.matmul_constant_zero_apply dot_S8192x64_S8192x256_S64x256_0_0_1_1_n_n none
    (truncf .bf16 (assigns x0 x1 x2) bitsLt_bf16_f32 : FVec Ideal S8192x64 .bf16) (descr x0) (ix2 k d)
  unfold aggs agg
  refine hm.trans ?_
  rw [← Equiv.sum_comp (contrEquiv1 dot_S8192x64_S8192x256_S64x256_0_0_1_1_n_n 8192 rfl rfl).symm]
  refine Finset.sum_congr rfl fun n _ => ?_
  have hk := contrEquiv1_symm_val dot_S8192x64_S8192x256_S64x256_0_0_1_1_n_n 8192 rfl rfl n
  have el : dot_S8192x64_S8192x256_S64x256_0_0_1_1_n_n.lhsIdx (ix2 k d) ((contrEquiv1 dot_S8192x64_S8192x256_S64x256_0_0_1_1_n_n 8192 rfl rfl).symm n) = ix2 n k := funext fun a => Fin.ext (by
    match a with
    | ⟨0, _⟩ => exact (lhsB_0 _ _).trans hk
    | ⟨1, _⟩ => exact lhsB_1 _ _)
  have er : dot_S8192x64_S8192x256_S64x256_0_0_1_1_n_n.rhsIdx (ix2 k d) ((contrEquiv1 dot_S8192x64_S8192x256_S64x256_0_0_1_1_n_n 8192 rfl rfl).symm n) = ix2 n d := funext fun a => Fin.ext (by
    match a with
    | ⟨0, _⟩ => exact (rhsB_0 _ _).trans hk
    | ⟨1, _⟩ => exact rhsB_1 _ _)
  rw [el, er, descr_at]
  show assigns x0 x1 x2 (ix2 n k) * _ = _
  rw [assigns_at]

theorem resids_at (k : Fin 64) (d : Fin 256) :
    resids x0 x1 x2 x3 (ix2 k d) = resid (xbK x0) (wK x1) (bK x2) (cK x3) k d := by
  unfold resids resid
  show aggs x0 x1 x2 (ix2 k d) - broadcastTo S64x256 _ broadcasts_S64x1_S64x256 (ix2 k d) * x3 (ix2 k d) = _
  rw [broadcastTo_a1_ab_apply, shapeCast_a_a1_apply, aggs_at, assignSums_at]

theorem lift_feature (k : Fin 64) (d : Fin 256) : reduces_S64x256_S64.lift (ix1 k) d = ix2 k d :=
  funext fun a => Fin.ext (by match a with | ⟨0, _⟩ => rfl | ⟨1, _⟩ => rfl)

theorem norms_at (k : Fin 64) (u : Fin 1) : norms x0 x1 x2 x3 (ix2 k u) = residNorm (xbK x0) (wK x1) (bK x2) (cK x3) k := by
  unfold norms residNorm
  show Ideal.sqrt (shapeCast S64x1 _ shapeCasts_S64_S64x1 (ix2 k u)) = _
  rw [shapeCast_a_a1_apply]
  refine congrArg Ideal.sqrt ((Ideal.multiReduction_add_single (mulf (resids x0 x1 x2 x3) (resids x0 x1 x2 x3)) 0x00000000#32
    reduces_S64x256_S64 (.inl rfl) rfl (ix1 k)).trans (Finset.sum_congr rfl fun d _ => ?_))
  exact (congrArg (mulf (resids x0 x1 x2 x3) (resids x0 x1 x2 x3)) (lift_feature k d)).trans
    (congrArg₂ (· * ·) (resids_at x0 x1 x2 x3 k d) (resids_at x0 x1 x2 x3 k d))

theorem normed_at (k : Fin 64) (d : Fin 256) :
    normed x0 x1 x2 x3 (ix2 k d) = pooledRow (xbK x0) (wK x1) (bK x2) (cK x3) k d := by
  unfold normed pooledRow
  show Ideal.div (resids x0 x1 x2 x3 (ix2 k d)) (broadcastTo S64x256 _ broadcasts_S64x1_S64x256 (ix2 k d)) = _
  rw [broadcastTo_a1_ab_apply]
  show Ideal.div _ (max (norms x0 x1 x2 x3 (ix2 k (0 : Fin 1))) (Ideal.ofBits .f32 0x2B8CBCCC#32)) = _
  rw [resids_at, norms_at]

/-- The body's stored block at `(u, k, d)` is the specification's pooled row of the loaded blocks at `(k, d)`. -/
theorem pay_at (u : Fin 1) (k : Fin 64) (d : Fin 256) :
    k0_pay1 (F := Ideal) x0 x1 x2 x3 (ix3 u k d) = pooledRow (xbK x0) (wK x1) (bK x2) (cK x3) k d := by
  rw [pay_stages, shapeCast_ab_1ab_apply, normed_at]

end Cert.KernelIdeal.Body

end
-- ==== Proof.KernelValue.lean ====
/-
  The kernel's result array is the pooled array of the specification, reshaped.

  The grid has one point per batch. At point `t` the body finds batch `t` of the descriptors in its first block, and the
  whole of the transposed weights, the bias row and the centres in the others (the transposition and the row view are host
  operations before the region, read back here at an index). What point `t` writes back is therefore batch `t` of the pooled
  array; the thirty-two blocks tile the `[32, 64, 256]` array, so after the region it holds the pooled array, and the one
  host operation after the region views it as `[32, 16384]`.
-/
import proofs.«116050_j65755949302226_1_alg».proof.Proof.Gen.KernelIdeal.Frame
import proofs.«116050_j65755949302226_1_alg».proof.Proof.KernelBody
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Body Cert.NetVlad

variable (m : (ℓ : Loc nD τ sig) → Buf (Elt Ideal) ℓ) (ρ : Dev nD → PrngReg)

/-- The four argument arrays as launched. -/
abbrev argX (c : Dev nD) : S32x8192x256.Idx → EReal := m ((c : Thread nD τ).loc main_arg0)
abbrev argW (c : Dev nD) : S64x256.Idx → EReal := m ((c : Thread nD τ).loc main_arg1)
abbrev argB (c : Dev nD) : S64.Idx → EReal := m ((c : Thread nD τ).loc main_arg2)
abbrev argC (c : Dev nD) : S64x256.Idx → EReal := m ((c : Thread nD τ).loc main_arg3)

/-- The result: the pooled array of the arguments viewed as `[32, 16384]`. -/
abbrev result (c : Dev nD) : S32x16384.Idx → EReal :=
  shapeCast S32x16384 (pooled (argX m c) (argW m c) (argB m c) (argC m c)) shapeCasts_S32x64x256_S32x16384

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the host operations before the region wrote -/

/-- The region finds the weights transposed. -/
theorem V_weights (c : Dev nD) :
    (V m c main_v0 : S256x64.Idx → EReal) = transpose S256x64 [1, 0] (argW m c) transposes_S64x256_S256x64_1_0 := by
  show StableHlo.after hostOps0 (fun b => m (c, b)) (Proc.devRef .tc main_v0) = _
  after_results

/-- The region finds the biases as one row. -/
theorem V_bias (c : Dev nD) :
    (V m c main_v1 : S1x64.Idx → EReal) = shapeCast S1x64 (argB m c) shapeCasts_S64_S1x64 := by
  show StableHlo.after hostOps0 (fun b => m (c, b)) (Proc.devRef .tc main_v1) = _
  after_results
  rfl

/-! ## The blocks at a point -/

/-- The block index maps over the grid: the descriptors' and the result's blocks move with the point along the batch axis;
    the other three windows hold their whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch a grid point works on. -/
def batchOf (t : Fin cfg0.N) : Fin 32 := ⟨t.val, lt_of_lt_of_eq t.isLt N_0⟩

/-- The input blocks at a point, at their literal types. -/
abbrev blkX (c : Dev nD) (t : Fin cfg0.N) : Vec Ideal S1x8192x256 .f32 := iblk m c 0 t
abbrev blkW (c : Dev nD) (t : Fin cfg0.N) : Vec Ideal S256x64 .f32 := iblk m c 1 t
abbrev blkB (c : Dev nD) (t : Fin cfg0.N) : Vec Ideal S1x64 .f32 := iblk m c 2 t
abbrev blkC (c : Dev nD) (t : Fin cfg0.N) : Vec Ideal S64x256 .f32 := iblk m c 3 t

/-- The descriptors' block at point `t` is batch `t` of the argument. -/
theorem blkX_at (c : Dev nD) (t : Fin cfg0.N) (n : Fin 8192) (d : Fin 256) :
    blkX m c t (ix3 (0 : Fin 1) n d) = argX m c (ix3 (batchOf t) n d) := by
  obtain ⟨e0, e1, e2, -⟩ := idx_facts t
  unfold blkX iblk
  rw [View.read_apply]
  show V m c main_arg0 _ = argX m c _
  rw [V_main_arg0]
  show argX m c _ = argX m c _
  congr 1
  funext a
  apply Fin.ext
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 256 + 1 * d.val = d.val; omega

/-- The weights' block is the whole transposed array: at `(d, k)` the weight of cluster `k` on feature `d`. -/
theorem blkW_at (c : Dev nD) (t : Fin cfg0.N) (d : Fin 256) (k : Fin 64) :
    blkW m c t (ix2 d k) = argW m c (ix2 k d) := by
  obtain ⟨-, -, -, e0, e1, -⟩ := idx_facts t
  unfold blkW iblk
  rw [View.read_apply]
  show (V m c main_v0 : S256x64.Idx → EReal) _ = _
  rw [V_weights]
  refine Eq.trans ?_ (transpose_ix2_apply (argW m c) transposes_S64x256_S256x64_1_0 d k)
  congr 1
  funext a
  apply Fin.ext
  match a with
  | ⟨0, _⟩ => show win0_1.index t (0 : Fin 2) * 256 + 1 * d.val = d.val; omega
  | ⟨1, _⟩ => show win0_1.index t (1 : Fin 2) * 64 + 1 * k.val = k.val; omega

/-- The bias block is the whole row. -/
theorem blkB_at (c : Dev nD) (t : Fin cfg0.N) (k : Fin 64) :
    blkB m c t (ix2 (0 : Fin 1) k) = argB m c (ix1 k) := by
  obtain ⟨-, -, -, -, -, e0, e1, -⟩ := idx_facts t
  unfold blkB iblk
  rw [View.read_apply]
  show (V m c main_v1 : S1x64.Idx → EReal) _ = _
  rw [V_bias]
  refine Eq.trans ?_ (shapeCast_a_1a_apply (argB m c) shapeCasts_S64_S1x64 (0 : Fin 1) k)
  congr 1
  funext a
  apply Fin.ext
  match a with
  | ⟨0, _⟩ => show win0_2.index t (0 : Fin 2) * 1 + 1 * 0 = 0; omega
  | ⟨1, _⟩ => show win0_2.index t (1 : Fin 2) * 64 + 1 * k.val = k.val; omega

/-- The centres' block is the whole array. -/
theorem blkC_at (c : Dev nD) (t : Fin cfg0.N) (k : Fin 64) (d : Fin 256) :
    blkC m c t (ix2 k d) = argC m c (ix2 k d) := by
  obtain ⟨-, -, -, -, -, -, -, e0, e1, -⟩ := idx_facts t
  unfold blkC iblk
  rw [View.read_apply]
  show V m c main_arg3 _ = argC m c _
  rw [V_main_arg3]
  show argC m c _ = argC m c _
  congr 1
  funext a
  apply Fin.ext
  match a with
  | ⟨0, _⟩ => show win0_3.index t (0 : Fin 2) * 64 + 1 * k.val = k.val; omega
  | ⟨1, _⟩ => show win0_3.index t (1 : Fin 2) * 256 + 1 * d.val = d.val; omega

/-! ## What a point writes back, and the array after the region -/

/-- Position `(u, k, d)` of the result's block at point `t` is `(t, k, d)` of the array. -/
theorem emb_out (t : Fin cfg0.N) (u : Fin 1) (k : Fin 64) (d : Fin 256) :
    ((cfg0.win 4).blk t).view.emb (ix3 u k d) = ix3 (batchOf t) k d := by
  obtain ⟨-, -, -, -, -, -, -, -, -, e0, e1, e2⟩ := idx_facts t
  have hu : u.val = 0 := by omega
  funext a
  apply Fin.ext
  match a with
  | ⟨0, _⟩ => show win0_4.index t (0 : Fin 3) * 1 + 1 * u.val = t.val; omega
  | ⟨1, _⟩ => show win0_4.index t (1 : Fin 3) * 64 + 1 * k.val = k.val; omega
  | ⟨2, _⟩ => show win0_4.index t (2 : Fin 3) * 256 + 1 * d.val = d.val; omega

/-- What point `t` writes back is block `t` of the pooled array of the arguments. -/
theorem flushed_eq (c : Dev nD) (t : Fin cfg0.N) :
    (dats m 0 c).flushed 4 t
      = ((cfg0.win 4).blk t).view.read (Elt Ideal) (pooled (argX m c) (argW m c) (argB m c) (argC m c)) := by
  show (cfg0.win 4).cut (grid0.coords t) ((dats m 0 c).after 4 t) = _
  rw [after0_4]
  unfold out0_4
  rw [View.canon_unit_zero hz3]
  simp only [View.ld_unit_zero (S := S1x8192x256) hz3, View.ld_unit_zero (S := S256x64) hz2, View.ld_unit_zero (S := S1x64) hz2,
    View.ld_unit_zero (S := S64x256) hz2]
  funext j
  obtain ⟨u, k, d, rfl⟩ : ∃ (u : Fin 1) (k : Fin 64) (d : Fin 256), j = ix3 u k d := ⟨j 0, j 1, j 2, eq_ix3 (n0 := 1) (n1 := 64) (n2 := 256) j⟩
  show k0_pay1 (F := Ideal) (blkX m c t) (blkW m c t) (blkB m c t) (blkC m c t) (ix3 u k d)
    = pooled (argX m c) (argW m c) (argB m c) (argC m c) (((cfg0.win 4).blk t).view.emb (ix3 u k d))
  rw [emb_out t u k d]
  refine (pay_at (blkX m c t) (blkW m c t) (blkB m c t) (blkC m c t) u k d).trans ?_
  have hx : xbK (blkX m c t) = fun n d => argX m c (ix3 (batchOf t) n d) := funext fun n => funext fun d => blkX_at m c t n d
  have hw : wK (blkW m c t) = fun k d => argW m c (ix2 k d) := funext fun k => funext fun d => blkW_at m c t d k
  have hb : bK (blkB m c t) = fun k => argB m c (ix1 k) := funext fun k => blkB_at m c t k
  have hc : cK (blkC m c t) = fun k d => argC m c (ix2 k d) := funext fun k => funext fun d => blkC_at m c t k d
  rw [hx, hw, hb, hc]
  rfl

/-- An index of the array is in point `t`'s block iff each coordinate is in the block's range on its axis. -/
theorem mem_blk (t : Fin cfg0.N) (i : S32x64x256.Idx) :
    i ∈ ((cfg0.win 4).blk t).view.set ↔ ∀ a : Fin 3, win0_4.index t a * S1x64x256.size a ≤ (i a).val ∧ (i a).val < win0_4.index t a * S1x64x256.size a + S1x64x256.size a := by
  show i ∈ ((View.whole main_v2).slice (win0_4.rect t)).set ↔ _
  rw [View.set_slice_whole, Rect.mem_set_unit]
  exact Iff.rfl

/-- Every index of the array lies in the block of the point of its batch. -/
theorem cover (i : S32x64x256.Idx) : ∃ t : Fin cfg0.N, (cfg0.win 4).flush t = true ∧ i ∈ ((cfg0.win 4).blk t).view.set := by
  have hN : cfg0.N = 32 := N_0
  have h0 : (i 0).val < 32 := (i 0).isLt
  have h1 : (i 1).val < 64 := (i 1).isLt
  have h2 : (i 2).val < 256 := (i 2).isLt
  obtain ⟨t, ht⟩ : ∃ t : Fin cfg0.N, t.val = (i 0).val := ⟨⟨(i 0).val, by rw [hN]; exact h0⟩, rfl⟩
  refine ⟨t, flush0_4 t, ?_⟩
  obtain ⟨-, -, -, -, -, -, -, -, -, e0, e1, e2⟩ := idx_facts t
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 256 ≤ (i 2).val ∧ (i 2).val < win0_4.index t (2 : Fin 3) * 256 + 256; omega

/-- The array after the region is the pooled array of the arguments. -/
theorem final (c : Dev nD) :
    (dats m 0 c).arrAt 4 cfg0.N = pooled (argX m c) (argW m c) (argB m c) (argC m c) :=
  (dats m 0 c).arrAt_eq_of_cover 4 (pooled (argX m c) (argW m c) (argB m c) (argC m c)) (fun t _ => flushed_eq m c t) cover

/-! ## The host operation after the region, and the run -/

/-- The result buffer after the reshape that follows the region. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = pooled (argX m c) (argW m c) (argB m c) (argC m c) :=
    (Pipeline.withArrays_arr spec0 launch0.win.arr_inj c _ _ 4).trans (final m c)
  rw [hw]
  rfl

/-- The run, read: the result buffer ends at the pooled array of the arguments viewed as `[32, 16384]`, the arguments
    as they were. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Hand

end
-- ==== Proof.lean ====
/-
  NetVLAD pooling: a Pallas kernel with one grid point per batch against its jnp reference, over the extended reals.

  Both programs compute, for each batch, the soft assignment of 8192 descriptors to 64 clusters (a softmax of the logits
  `x Wᵀ + b` over the clusters, shifted by each row's maximum), the assignment-weighted sum of the descriptors minus the
  total assignment times the cluster centre, and divide each cluster's residual by its Euclidean norm clamped below by the
  value of one shared f32 pattern; both then view the `[32, 64, 256]` result as `[32, 16384]`. The kernel tiles the batch
  axis, takes its two matrix products on the matrix unit in bf16 with an f32 accumulator and its sums as lane reductions;
  the reference contracts the whole arrays on the host. On the extended reals a change of float format is the identity and
  every sum is a sum over a finite coordinate range, so the two are one function of the arguments, the specification's
  `pooled`: the reference stage by stage (Proof/RefPooled.lean), the kernel's body stage by stage (Proof/KernelBody.lean)
  and its blocks assembled into the array (Proof/KernelValue.lean). No law that needs finite operands is used, so the
  precondition is never opened. The idealization rewrote nothing, so `preserves` is `True`.
-/
import proofs.«116050_j65755949302226_1_alg».proof.Defs
import proofs.«116050_j65755949302226_1_alg».proof.Proof.Gen.Kernel
import proofs.«116050_j65755949302226_1_alg».proof.Proof.Gen.Kernel.Skeleton
import proofs.«116050_j65755949302226_1_alg».proof.Proof.Gen.Kernel.Launch
import proofs.«116050_j65755949302226_1_alg».proof.Proof.Gen.Kernel.Points
import proofs.«116050_j65755949302226_1_alg».proof.Proof.Gen.Kernel.Frame
import proofs.«116050_j65755949302226_1_alg».proof.Proof.Gen.KernelIdeal
import proofs.«116050_j65755949302226_1_alg».proof.Proof.Gen.KernelIdeal.Skeleton
import proofs.«116050_j65755949302226_1_alg».proof.Proof.Gen.KernelIdeal.Launch
import proofs.«116050_j65755949302226_1_alg».proof.Proof.Gen.KernelIdeal.Points
import proofs.«116050_j65755949302226_1_alg».proof.Proof.Gen.KernelIdeal.Frame
import proofs.«116050_j65755949302226_1_alg».proof.Proof.Gen.ReferenceIdeal
import proofs.«116050_j65755949302226_1_alg».proof.Proof.Gen.Pre_finite_inputs
import proofs.«116050_j65755949302226_1_alg».proof.Proof.Gen.ReferenceIdeal.Run
import proofs.«116050_j65755949302226_1_alg».proof.Proof.Gen.ReferenceIdeal.Read
import proofs.«116050_j65755949302226_1_alg».proof.Proof.RefPooled
import proofs.«116050_j65755949302226_1_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ
/-- So does the kernel read on the extended reals. -/
theorem frame_kernelIdeal : Cert.frame_KernelIdeal := fun m ρ _ => Cert.KernelIdeal.Gen.frame m ρ
/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the pooled array of the arguments viewed as `[32, 16384]`. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  unfold Cert.ReferenceIdeal.Read.val_main_v28
  rw [Cert.ReferenceIdeal.RefValue.ref_pooled, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
